-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096 : Shape := ⟨1, ![4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x4096 .f32) (main_arg1 : FVec F S4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S32768x4096 : Shape := ⟨2, ![32768, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S32768x4096.size a
  hwx0_2 : ∀ i : grid0.Coords, EltTy.bits .f32 = 32 ∨ (Rect.block (s := S32768x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S32768x4096 : Shape := ⟨2, ![32768, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S1x4096, .f32⟩
  | .hbm, ⟨3, _⟩ => ⟨S32768x4096, .f32⟩
  | .hbm, ⟨4, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)

variable [Facts₀]

class Facts : Prop extends Facts₀ where

variable [Facts]
-- ==== Proof.FeatureScale.lean ====
/-
  The per-feature scale, as one function of the two argument arrays.

  Entry (r, c) of the result is x (r, c) · w c: every row of x is multiplied, feature by feature, by the one
  weight vector. The same function is written a second time over a weight held as a one-row matrix [1, 4096]
  (entry (r, c) is x (r, c) · w₂ (0, c)); a weight vector reshaped to one row turns the second form into the
  first. No law of the extended reals is used: both forms are the same single product at every index.
-/
import Idealize.ShloMosaic.PureOps.Ideal
import Idealize.ShloMosaic.Lib.ValueIdx
import Idealize.ShloMosaic.Lib.ValueLayout

noncomputable section

namespace Cert.FeatureScale

open Idealize.ShloMosaic Idealize.ShloMosaic.ValueIdx

/-- The matrix scaled feature by feature: entry (r, c) is x (r, c) · w c. -/
def featureScale (x : FVec Ideal ⟨2, ![32768, 4096]⟩ .f32) (w : FVec Ideal ⟨1, ![4096]⟩ .f32) :
    FVec Ideal ⟨2, ![32768, 4096]⟩ .f32 :=
  fun i => x i * w (ix1 (i 1))

/-- The same with the weights held as a one-row matrix: entry (r, c) is x (r, c) · w₂ (0, c). -/
def rowScale (x : FVec Ideal ⟨2, ![32768, 4096]⟩ .f32) (w₂ : FVec Ideal ⟨2, ![1, 4096]⟩ .f32) :
    FVec Ideal ⟨2, ![32768, 4096]⟩ .f32 :=
  fun i => x i * w₂ (ix2 (0 : Fin 1) (i 1))

/-- Scaling by the weight vector reshaped to one row is scaling by the weight vector: the reshape keeps
    entry c of the vector at (0, c). -/
theorem rowScale_reshape (x : FVec Ideal ⟨2, ![32768, 4096]⟩ .f32) (w : FVec Ideal ⟨1, ![4096]⟩ .f32)
    (h : (⟨1, ![4096]⟩ : Shape).ShapeCasts ⟨2, ![1, 4096]⟩) :
    rowScale x (shapeCast ⟨2, ![1, 4096]⟩ w h) = featureScale x w := by
  funext i
  unfold rowScale featureScale
  rw [shapeCast_a_1a_apply w h (0 : Fin 1) (i 1)]

end Cert.FeatureScale

end
-- ==== Proof.KernelScale.lean ====
/-
  The kernel computes the per-feature scale.

  The grid has 64 points. Point t holds rows 512·t … 512·t + 511 of x (all 4096 columns) and the one row of
  weights, multiplies every row of its block by the weights, and writes the block back to the same rows of the
  result. The weights reach the kernel as a one-row matrix: the host reshapes the weight vector to [1, 4096]
  before the region. So what point t writes back is block t of `rowScale x w₂` with w₂ the reshaped weights;
  the 64 blocks cover all 32768 rows, so the result array is `rowScale x w₂`, which is `featureScale x w`.
-/
import proofs.«413122_j16819091931190_3_alg».proof.Proof.Gen.KernelIdeal.Value
import proofs.«413122_j16819091931190_3_alg».proof.Proof.FeatureScale
import Idealize.ShloMosaic.Lib.StableHlo.Run

noncomputable section

namespace Cert.KernelIdeal.ScaleValue

open Cert.KernelIdeal Cert.KernelIdeal.Gen Idealize.ShloMosaic Idealize.ShloMosaic.TcCoe Idealize.SL.Sem
open Idealize.ShloMosaic.Pipeline (Dat)
open Idealize.ShloMosaic.ValueIdx Cert.FeatureScale

variable (m : (ℓ : Loc nD τ sig) → Buf (Elt Ideal) ℓ) (ρ : Dev nD → PrngReg)

theorem origin : (![0, 0] : Fin 2 → Nat) = fun _ => 0 := funext fun a => by fin_cases a <;> rfl

/-- The weights as the region finds them: the weight vector reshaped to one row by the host. -/
theorem weights_row (c : Dev nD) :
    (V m c main_v0 : S1x4096.Idx → EReal)
      = shapeCast S1x4096 (m ((c : Thread nD τ).loc main_arg1)) shapeCasts_S4096_S1x4096 := by
  dsimp only [Gen.V, Gen.hostOps0]
  after_results
  rfl

/-- The printed index maps over the grid: x's block and the result's block at point t are both block row t,
    column block 0; the weights' block is always the one row. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-scaled matrix at an index i is the product of x read at i and the weights' row read at (0, column
    of i), wherever those two reads are spelt from. -/
theorem rowScale_at (X : FVec Ideal S32768x4096 .f32) (W : FVec Ideal S1x4096 .f32)
    (ix i : S32768x4096.Idx) (iw : S1x4096.Idx) (hx : ix = i) (hw : iw = ix2 (0 : Fin 1) (i 1)) :
    FloatOps.mulf (X ix) (W iw) = rowScale X W i := by
  subst hx hw
  rfl

/-- What point t writes back is block t of the row-scaled matrix: at (p, q) of the block, row 512·t + p of x
    times the weights' entry q. -/
theorem flushed_eq (c : Dev nD) (t : Fin cfg0.N) :
    (dats m 0 c).flushed 2 t
      = ((cfg0.win 2).blk t).view.read (Elt Ideal) (rowScale (V m c main_arg0) (V m c main_v0)) := by
  rw [Value.flushed2]
  unfold out0_2
  simp only [View.ld_unit_zero (S := S512x4096) origin, View.ld_unit_zero (S := S1x4096) origin]
  funext j
  show (View.canon [⟨r0_0, k0_pay1 (iblk m c 0 t) (iblk m c 1 t)⟩] : Vec Ideal S512x4096 .f32) j
      = rowScale (V m c main_arg0) (V m c main_v0) (((cfg0.win 2).blk t).view.emb j)
  refine (Value.canon2_eq (F := Ideal) (iblk m c 0 t) (iblk m c 1 t) j).trans ?_
  obtain ⟨a0, a1, b0, b1, o0, o1⟩ := index_facts t
  have hx : ((cfg0.win 0).blk t).view.emb (Value.ix2_0 j) = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have hw : ((cfg0.win 1).blk t).view.emb (Value.ix2_1 j)
      = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 4096 + 1 * (j 1).val = win0_2.index t (1 : Fin 2) * 4096 + 1 * (j 1).val; omega
  exact rowScale_at (V m c main_arg0) (V m c main_v0) (((cfg0.win 0).blk t).view.emb (Value.ix2_0 j))
    (((cfg0.win 2).blk t).view.emb j) (((cfg0.win 1).blk t).view.emb (Value.ix2_1 j)) hx hw

/-- An index of the result is in point t's block iff, on each axis, it lies in the block's range. -/
theorem mem_blk (t : Fin cfg0.N) (i : S32768x4096.Idx) :
    i ∈ ((cfg0.win 2).blk t).view.set
      ↔ ∀ a : Fin 2, win0_2.index t a * S512x4096.size a ≤ (i a).val
          ∧ (i a).val < win0_2.index t a * S512x4096.size a + S512x4096.size a := by
  show i ∈ ((View.whole main_v1).slice (win0_2.rect t)).set ↔ _
  rw [View.set_slice_whole, Rect.mem_set_unit]
  exact Iff.rfl

/-- Every index (r, c) of the result is written back by some point: the point r / 512, whose block holds rows
    512·(r / 512) … 512·(r / 512) + 511 and every column. -/
theorem covered (i : S32768x4096.Idx) :
    ∃ t : Fin cfg0.N, (cfg0.win 2).flush t = true ∧ i ∈ ((cfg0.win 2).blk t).view.set := by
  have hi0 : (i 0).val < 32768 := (i 0).isLt
  have hi1 : (i 1).val < 4096 := (i 1).isLt
  have hN : cfg0.N = 64 := N_0
  let t : Fin cfg0.N := ⟨(i 0).val / 512, by rw [hN]; omega⟩
  obtain ⟨a0, a1, b0, b1, o0, o1⟩ := index_facts t
  have ht : t.val = (i 0).val / 512 := rfl
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The result array after the run is the per-feature scale of the two arguments as launched. -/
theorem final (c : Dev nD) :
    (dats m 0 c).arrAt 2 cfg0.N
      = featureScale (m ((c : Thread nD τ).loc main_arg0)) (m ((c : Thread nD τ).loc main_arg1)) := by
  rw [(dats m 0 c).arrAt_eq_of_cover 2 (rowScale (V m c main_arg0) (V m c main_v0))
    (fun t _ => flushed_eq m c t) covered]
  rw [weights_row m c, rowScale_reshape, V_main_arg0 m c]

/-- Every weakly fair execution of the kernel's program ends with its result at the per-feature scale of the
    arguments, and the arguments unchanged. -/
theorem run : θ_run defs (onTc (τ := τ) (main (F := Ideal))) ⟨m, fun _ => 0, ρ⟩ fun r => ∀ c : Dev nD,
      r.2.mem ((c : Thread nD τ).loc main_v1)
        = featureScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ScaleValue

end
-- ==== Proof.ReferenceScale.lean ====
/-
  The reference computes the per-feature scale.

  The reference first lays the weight vector out as one row [1, 4096], then repeats that row down all 32768
  rows, and multiplies the result into x entry by entry. Read at an index (r, c): the repeated row holds the
  one row's entry (0, c), which is the vector's entry c; so the product at (r, c) is x (r, c) · w c, the
  function `featureScale`.
-/
import proofs.«413122_j16819091931190_3_alg».proof.Proof.Gen.ReferenceIdeal.Read
import proofs.«413122_j16819091931190_3_alg».proof.Proof.FeatureScale

noncomputable section

namespace Cert.ReferenceIdeal.ScaleValue

open Cert.ReferenceIdeal Cert.ReferenceIdeal.Gen Idealize.ShloMosaic Idealize.ShloMosaic.ValueIdx Cert.FeatureScale

/-- Following an index (r, c) of the result back through the two broadcasts lands on entry c of the weight
    vector. -/
theorem weight_index (i : S32768x4096.Idx) : Read.idx_main_v0 (Read.idx_main_v1 i) = ix1 (i 1) :=
  funext fun a => Fin.ext (by match a with | ⟨0, _⟩ => rfl)

/-- The reference's result term is `featureScale` of its two arguments: at (r, c) both are x (r, c) · w c. -/
theorem result_eq (x : FVec Ideal S32768x4096 .f32) (w : FVec Ideal S4096 .f32) :
    mulf x (broadcastInDim S32768x4096 ![0, 1] bcast_S1x4096_S32768x4096_0_1 (broadcastInDim S1x4096 ![1] bcast_S4096_S1x4096_1 w))
      = featureScale x w := by
  rw [Read.val_main_v2_eq]
  funext i
  rw [Read.val_main_v2_apply, Read.val_main_v1_apply, Read.val_main_v0_apply, weight_index]
  rfl

end Cert.ReferenceIdeal.ScaleValue

end
-- ==== Proof.lean ====
/-
  A per-feature scale: x [32768, 4096] times weight [4096], the weight repeated down every row.

  The kernel walks the rows in 64 blocks of 512: at each point it multiplies its block of x, row by row, by the
  one row of weights (the weight vector reshaped to [1, 4096] before the region) and writes the block back to
  the same rows of the result. The reference repeats the weight vector down all rows and multiplies whole arrays.
  Over the extended reals both results hold, at every index (r, c), the single product x (r, c) · w c, the
  function `featureScale` of the two arguments (FeatureScale.lean): the kernel because its 64 blocks cover the
  result and each is a block of that function (KernelScale.lean), the reference by reading its two broadcasts
  at an index (ReferenceScale.lean). The two sides are the same product with the factors in the same order, so
  no law of the extended reals is needed and finiteness of the inputs is never used.

  The idealization rewrote no operation of the kernel, so there is nothing to preserve. The kernel's programs
  run, and leave their arguments unchanged, by their frame certificates; the reference's by its run.
-/
import proofs.«413122_j16819091931190_3_alg».proof.Defs
import proofs.«413122_j16819091931190_3_alg».proof.Proof.Gen.Kernel
import proofs.«413122_j16819091931190_3_alg».proof.Proof.Gen.Kernel.Skeleton
import proofs.«413122_j16819091931190_3_alg».proof.Proof.Gen.Kernel.Launch
import proofs.«413122_j16819091931190_3_alg».proof.Proof.Gen.Kernel.Points
import proofs.«413122_j16819091931190_3_alg».proof.Proof.Gen.Kernel.Frame
import proofs.«413122_j16819091931190_3_alg».proof.Proof.Gen.KernelIdeal
import proofs.«413122_j16819091931190_3_alg».proof.Proof.Gen.KernelIdeal.Skeleton
import proofs.«413122_j16819091931190_3_alg».proof.Proof.Gen.KernelIdeal.Launch
import proofs.«413122_j16819091931190_3_alg».proof.Proof.Gen.KernelIdeal.Points
import proofs.«413122_j16819091931190_3_alg».proof.Proof.Gen.KernelIdeal.Frame
import proofs.«413122_j16819091931190_3_alg».proof.Proof.Gen.ReferenceIdeal
import proofs.«413122_j16819091931190_3_alg».proof.Proof.Gen.Pre_finite_inputs
import proofs.«413122_j16819091931190_3_alg».proof.Proof.Gen.KernelIdeal.Value
import proofs.«413122_j16819091931190_3_alg».proof.Proof.Gen.ReferenceIdeal.Run
import proofs.«413122_j16819091931190_3_alg».proof.Proof.Gen.ReferenceIdeal.Read
import proofs.«413122_j16819091931190_3_alg».proof.Proof.FeatureScale
import proofs.«413122_j16819091931190_3_alg».proof.Proof.KernelScale
import proofs.«413122_j16819091931190_3_alg».proof.Proof.ReferenceScale
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on x and the weights, the kernel's result and the reference's are both the
    per-feature scale of those two arrays. -/
theorem algebraic : Cert.algebraic_KernelIdeal_ReferenceIdeal := by
  intro m ρ m' ρ' _ hagree
  refine ⟨_, Cert.KernelIdeal.ScaleValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.ScaleValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
